-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S16384x4096 .f32) (main_arg2 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096 : Shape := ⟨1, ![4096]⟩
abbrev S1x4096 : Shape := ⟨2, ![1, 4096]⟩
abbrev S128x4096 : Shape := ⟨2, ![128, 4096]⟩
abbrev S1x16384x4096 : Shape := ⟨3, ![1, 16384, 4096]⟩
abbrev S2x16384x4096 : Shape := ⟨3, ![2, 16384, 4096]⟩

abbrev nBuf : Space → Nat
  | .hbm => 9
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S1x4096, .f32⟩
  | .hbm, ⟨4, _⟩ => ⟨S16384x4096, .f32⟩
  | .hbm, ⟨5, _⟩ => ⟨S16384x4096, .f32⟩
  | .hbm, ⟨6, _⟩ => ⟨S1x16384x4096, .f32⟩
  | .hbm, ⟨7, _⟩ => ⟨S1x16384x4096, .f32⟩
  | .hbm, ⟨8, _⟩ => ⟨S2x16384x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S128x4096_S128x4096_0_0 : ∀ a, (![0, 0] : Fin 2 → Nat) a + S128x4096.size a ≤ S128x4096.size a
  h_S128x4096 : 0 < S128x4096.numel
  broadcasts_S1x4096_S128x4096 : S1x4096.Broadcasts S128x4096
  bcast_S16384x4096_S1x16384x4096_1_2 : S16384x4096.BroadcastsInDim S1x16384x4096 (![1, 2] : Fin 2 → Fin S1x16384x4096.rank)
  concatenates_S1x16384x4096_S1x16384x4096_S2x16384x4096_d0 : Shape.Concatenates [S1x16384x4096, S1x16384x4096] S2x16384x4096 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S16384x4096.size a
  hwx0_0 : ∀ i : grid0.Coords, EltTy.bits .f32 = 32 ∨ (Rect.block (s := S16384x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S16384x4096.size a
  hwx0_1 : ∀ i : grid0.Coords, EltTy.bits .f32 = 32 ∨ (Rect.block (s := S16384x4096) S128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S16384x4096.size a
  hwx0_3 : ∀ i : grid0.Coords, EltTy.bits .f32 = 32 ∨ (Rect.block (s := S16384x4096) S128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S16384x4096.size a
  hwx0_4 : ∀ i : grid0.Coords, EltTy.bits .f32 = 32 ∨ (Rect.block (s := S16384x4096) S128x4096.size (cc0_transform_4 i) (hinb0_4 i)).WholeWords (EltTy.packing .f32)

variable [Facts₀]

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S128x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096 : Shape := ⟨1, ![4096]⟩
abbrev S1x4096 : Shape := ⟨2, ![1, 4096]⟩
abbrev S1x16384x4096 : Shape := ⟨3, ![1, 16384, 4096]⟩
abbrev S2x16384x4096 : Shape := ⟨3, ![2, 16384, 4096]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S16384x4096, .f32⟩
  | .hbm, ⟨7, _⟩ => ⟨S16384x4096, .f32⟩
  | .hbm, ⟨8, _⟩ => ⟨S1x4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S1x4096, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S1x16384x4096, .f32⟩
  | .hbm, ⟨20, _⟩ => ⟨S1x16384x4096, .f32⟩
  | .hbm, ⟨21, _⟩ => ⟨S2x16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S16384x4096_S1x16384x4096_1_2 : S16384x4096.BroadcastsInDim S1x16384x4096 (![1, 2] : Fin 2 → Fin S1x16384x4096.rank)
  concatenates_S1x16384x4096_S1x16384x4096_S2x16384x4096_d0 : Shape.Concatenates [S1x16384x4096, S1x16384x4096] S2x16384x4096 0

variable [Facts₀]

class Facts : Prop extends Facts₀ where

variable [Facts]
-- ==== Proof.Rotation.lean ====
/-
  The complex rotation of a batch of rows by per-column phases, as ONE function of the three argument arrays.

  For real and imaginary parts `xr`, `xi` of shape [16384, 4096] and phases `ph` of shape [4096], entry (b, n) of the
  rotated pair is
      re (b, n) = xr (b, n) · cos (ph n) − xi (b, n) · sin (ph n)
      im (b, n) = xr (b, n) · sin (ph n) + xi (b, n) · cos (ph n),
  that is (xr + i·xi) · exp (i · ph n) split into its parts; the result array stacks the two along a new leading
  axis of extent 2. Every operation is the float instance's own (`FloatOps`), so the same text is read at any
  instance; at the ideal one a float is an extended real and each operation the exact one.
-/
import Idealize.ShloMosaic.PureOps
import Idealize.ShloMosaic.Lib.ValueIdx

noncomputable section

namespace Cert.Rotation

open Idealize.ShloMosaic Idealize.ShloMosaic.ValueIdx

variable {F : FTy → Type} [FloatOps F]

/-- The batch of rows: 16384 rows of 4096 columns. -/
abbrev SBN : Shape := ⟨2, ![16384, 4096]⟩
/-- One phase per column. -/
abbrev SN : Shape := ⟨1, ![4096]⟩
/-- One part of the result, under a leading unit axis. -/
abbrev S1BN : Shape := ⟨3, ![1, 16384, 4096]⟩
/-- The result: real part at leading index 0, imaginary part at 1. -/
abbrev S2BN : Shape := ⟨3, ![2, 16384, 4096]⟩

/-- The column of an entry, as an index of the phase vector. -/
abbrev col (i : SBN.Idx) : SN.Idx := ix1 (⟨(i 1).val, (i 1).isLt⟩ : Fin 4096)

/-- The real part of the rotated entry: xr · cos φ − xi · sin φ at the entry's column phase φ. -/
def re (xr xi : SBN.Idx → Elt F .f32) (ph : SN.Idx → Elt F .f32) : SBN.Idx → Elt F .f32 := fun i =>
  FloatOps.subf (FloatOps.mulf (xr i) (FloatOps.cos (ph (col i)))) (FloatOps.mulf (xi i) (FloatOps.sin (ph (col i))))

/-- The imaginary part of the rotated entry: xr · sin φ + xi · cos φ at the entry's column phase φ. -/
def im (xr xi : SBN.Idx → Elt F .f32) (ph : SN.Idx → Elt F .f32) : SBN.Idx → Elt F .f32 := fun i =>
  FloatOps.addf (FloatOps.mulf (xr i) (FloatOps.sin (ph (col i)))) (FloatOps.mulf (xi i) (FloatOps.cos (ph (col i))))

/-- Two arrays of the batch shape stacked along a new leading axis: each gets a leading unit axis, and the two are
    joined along it. Both programs end with exactly these three operations, so the stacking is never opened: two
    stacks are equal as soon as their parts are. -/
def stack (hb : SBN.BroadcastsInDim S1BN (![1, 2] : Fin 2 → Fin S1BN.rank)) (hc : Shape.Concatenates [S1BN, S1BN] S2BN 0)
    (a b : SBN.Idx → Elt F .f32) : S2BN.Idx → Elt F .f32 :=
  concatenate S2BN 0 [⟨S1BN, broadcastInDim S1BN ![1, 2] hb a⟩, ⟨S1BN, broadcastInDim S1BN ![1, 2] hb b⟩] hc

end Cert.Rotation

end
-- ==== Proof.KernelRotation.lean ====
/-
  What the kernel leaves in its result, read off its frame run.

  The kernel walks the batch in 128 steps; step t stages rows 128·t … 128·t + 127 of the real and of the imaginary
  input (all 4096 columns), and — once, at the first step — the phase vector as a single row [1, 4096]. Its body
  takes cos and sin of that row, repeats each down the 128 staged rows, and writes
      xr · cos − xi · sin      and      xr · sin + xi · cos
  into the two output blocks, which go back to rows 128·t … 128·t + 127 of the two output arrays. So the block
  written at step t is block t of ONE whole-array function of the arguments, the specified real (imaginary)
  part: entry (r, n) of a staged block is entry (128·t + r, n) of its array, and the staged phase row at column n
  is phase n. The 128 row blocks tile the output arrays, so each output array ends as that function; the three
  host operations after the kernel stack the two arrays.
-/
import proofs.«162917_j40243843564154_1_alg».proof.Proof.Gen.KernelIdeal.Frame
import proofs.«162917_j40243843564154_1_alg».proof.Proof.Rotation
import Idealize.ShloMosaic.Lib.Pipeline.Value
import Idealize.ShloMosaic.Lib.ValueIdx
import Idealize.ShloMosaic.Lib.StableHlo.Run

set_option maxRecDepth 16384

noncomputable section

namespace Cert.KernelIdeal.KerValue

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- Every access of the body starts at the origin of its buffer. -/
theorem hz : (![0, 0] : Fin 2 → Nat) = fun _ => 0 := funext fun a => by fin_cases a <;> rfl

/-! ## The phase row -/

/-- The array the phase window stages is the phase vector laid out as one row: the one host operation before the
    kernel is that reshape. -/
theorem phase_eq (c : Dev nD) : (V m c main_v0 : S1x4096.Idx → Elt F .f32) = shapeCast S1x4096 (m ((c : Thread nD τ).loc main_arg2)) shapeCasts_S4096_S1x4096 := by
  show StableHlo.after hostOps0 (fun b => m (c, b)) (Proc.devRef .tc main_v0) = _
  after_results
  rfl

/-- Column q of that row is phase q (both sit at position q in row-major order). -/
theorem phase_row (c : Dev nD) (q : Fin 4096) : V m c main_v0 (ix2 (0 : Fin 1) q) = m ((c : Thread nD τ).loc main_arg2) (ix1 q) := by
  rw [phase_eq]
  exact shapeCast_apply _ _ (ix2 (0 : Fin 1) q) (ix1 q) (by rw [Shape.rowMajor_val_two, Shape.rowMajor_val_one]; show q.val = 0 * 4096 + q.val; omega)

/-! ## The body's two results at an entry -/

/-- Repeating a row [1, 4096] down 128 rows: entry (p, q) reads column q of the row. -/
theorem rows_apply (y : Vec F S1x4096 .f32) (p : Fin 128) (q : Fin 4096) :
    broadcastTo S128x4096 y broadcasts_S1x4096_S128x4096 (ix2 p q) = y (ix2 (0 : Fin 1) q) :=
  broadcastTo_apply y _ (ix2 p q) (ix2 (0 : Fin 1) q) (fun a => match a with
    | ⟨0, _⟩ => by show (0 : Nat) = if (1 : Nat) = 1 then 0 else _; rw [if_pos rfl]
    | ⟨1, _⟩ => by show q.val = if (4096 : Nat) = 1 then 0 else q.val; rw [if_neg (by decide)])

/-- The first stored value at entry (p, q): xr · cos φ − xi · sin φ with φ the staged row's column q. -/
theorem pay4_apply (x2 : Vec F S1x4096 .f32) (x0 x1 : Vec F S128x4096 .f32) (p : Fin 128) (q : Fin 4096) :
    k0_pay4 x2 x0 x1 (ix2 p q) = FloatOps.subf (FloatOps.mulf (x0 (ix2 p q)) (FloatOps.cos (x2 (ix2 (0 : Fin 1) q))))
      (FloatOps.mulf (x1 (ix2 p q)) (FloatOps.sin (x2 (ix2 (0 : Fin 1) q)))) := by
  unfold k0_pay4 k0_pay2 k0_pay3 k0_pay1
  show FloatOps.subf (FloatOps.mulf (x0 (ix2 p q)) (broadcastTo S128x4096 (cos (shapeCast S1x4096 x2 shapeCasts_S1x4096_S1x4096)) broadcasts_S1x4096_S128x4096 (ix2 p q)))
      (FloatOps.mulf (x1 (ix2 p q)) (broadcastTo S128x4096 (sin (shapeCast S1x4096 x2 shapeCasts_S1x4096_S1x4096)) broadcasts_S1x4096_S128x4096 (ix2 p q))) = _
  rw [rows_apply, rows_apply, shapeCast_self]
  rfl

/-- The second stored value at entry (p, q): xr · sin φ + xi · cos φ. -/
theorem pay5_apply (x2 : Vec F S1x4096 .f32) (x0 x1 : Vec F S128x4096 .f32) (p : Fin 128) (q : Fin 4096) :
    k0_pay5 x2 x0 x1 (ix2 p q) = FloatOps.addf (FloatOps.mulf (x0 (ix2 p q)) (FloatOps.sin (x2 (ix2 (0 : Fin 1) q))))
      (FloatOps.mulf (x1 (ix2 p q)) (FloatOps.cos (x2 (ix2 (0 : Fin 1) q)))) := by
  unfold k0_pay5 k0_pay2 k0_pay3 k0_pay1
  show FloatOps.addf (FloatOps.mulf (x0 (ix2 p q)) (broadcastTo S128x4096 (sin (shapeCast S1x4096 x2 shapeCasts_S1x4096_S1x4096)) broadcasts_S1x4096_S128x4096 (ix2 p q)))
      (FloatOps.mulf (x1 (ix2 p q)) (broadcastTo S128x4096 (cos (shapeCast S1x4096 x2 shapeCasts_S1x4096_S1x4096)) broadcasts_S1x4096_S128x4096 (ix2 p q))) = _
  rw [rows_apply, rows_apply, shapeCast_self]
  rfl

/-- The same at any index of the block whose second coordinate is q. -/
theorem pay4_at (x2 : Vec F S1x4096 .f32) (x0 x1 : Vec F S128x4096 .f32) (y : S128x4096.Idx) (q : Fin 4096) (hq : (y 1).val = q.val) :
    k0_pay4 x2 x0 x1 y = FloatOps.subf (FloatOps.mulf (x0 y) (FloatOps.cos (x2 (ix2 (0 : Fin 1) q))))
      (FloatOps.mulf (x1 y) (FloatOps.sin (x2 (ix2 (0 : Fin 1) q)))) := by
  have e : y = ix2 (⟨(y 0).val, (y 0).isLt⟩ : Fin 128) q := funext fun a => match a with
    | ⟨0, _⟩ => rfl
    | ⟨1, _⟩ => Fin.ext hq
  rw [e]
  exact pay4_apply x2 x0 x1 _ q

theorem pay5_at (x2 : Vec F S1x4096 .f32) (x0 x1 : Vec F S128x4096 .f32) (y : S128x4096.Idx) (q : Fin 4096) (hq : (y 1).val = q.val) :
    k0_pay5 x2 x0 x1 y = FloatOps.addf (FloatOps.mulf (x0 y) (FloatOps.sin (x2 (ix2 (0 : Fin 1) q))))
      (FloatOps.mulf (x1 y) (FloatOps.cos (x2 (ix2 (0 : Fin 1) q)))) := by
  have e : y = ix2 (⟨(y 0).val, (y 0).isLt⟩ : Fin 128) q := funext fun a => match a with
    | ⟨0, _⟩ => rfl
    | ⟨1, _⟩ => Fin.ext hq
  rw [e]
  exact pay5_apply x2 x0 x1 _ q

/-! ## Where each window's block sits -/

/-- The printed index maps over the 128 steps: the four batch windows are at block row t, block column 0; the phase
    row stays at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The staged phase row at column q is phase q, at every step. -/
theorem phase_blk (c : Dev nD) (t : Fin cfg0.N) (q : Fin 4096) : iblk m c 2 t (ix2 (0 : Fin 1) q) = m ((c : Thread nD τ).loc main_arg2) (ix1 q) := by
  obtain ⟨e00, e01, e10, e11, e20, e21, e30, e31, e40, e41⟩ := idx_facts t
  refine Eq.trans ?_ (phase_row m c q)
  show V m c main_v0 (((cfg0.win 2).blk t).view.emb (ix2 (0 : Fin 1) q)) = V m c main_v0 (ix2 (0 : Fin 1) q)
  refine congrArg _ (funext fun a => Fin.ext ?_)
  match a with
  | ⟨0, _⟩ => show win0_2.index t (0 : Fin 2) * 1 + 1 * 0 = 0; omega
  | ⟨1, _⟩ => show win0_2.index t (1 : Fin 2) * 4096 + 1 * q.val = q.val; omega

/-! ## What step t writes back is block t of the specified part -/

/-- The real part's block: the body's first result over the staged blocks is the specified real part read through the
    output block, because the two input blocks sit where the output block does and the phase row is whole. -/
theorem flushed3_eq (c : Dev nD) (t : Fin cfg0.N) :
    (dats m 0 c).flushed 3 t = ((cfg0.win 3).blk t).view.read (Elt F)
      (Cert.Rotation.re (V m c main_arg0) (V m c main_arg1) (m ((c : Thread nD τ).loc main_arg2))) := by
  show (cfg0.win 3).cut (grid0.coords t) ((dats m 0 c).after 3 t) = _
  rw [after0_3]
  unfold out0_3
  rw [View.canon_unit_zero hz]
  simp only [View.ld_unit_zero (S := S128x4096) hz, View.ld_unit_zero (S := S1x4096) hz]
  obtain ⟨e00, e01, e10, e11, e20, e21, e30, e31, e40, e41⟩ := idx_facts t
  funext j
  have hj0 : (j 0).val < 128 := (j 0).isLt
  have hj1 : (j 1).val < 4096 := (j 1).isLt
  refine (pay4_at (iblk m c 2 t) (iblk m c 0 t) (iblk m c 1 t) ((win0 3).xinj (grid0.coords t) j) ⟨(j 1).val, hj1⟩ rfl).trans ?_
  rw [phase_blk m c t]
  show _ = Cert.Rotation.re (V m c main_arg0) (V m c main_arg1) (m ((c : Thread nD τ).loc main_arg2)) (((cfg0.win 3).blk t).view.emb j)
  unfold Cert.Rotation.re
  have hA : iblk m c 0 t ((win0 3).xinj (grid0.coords t) j) = V m c main_arg0 (((cfg0.win 3).blk t).view.emb j) := by
    unfold iblk
    show V m c main_arg0 _ = V m c main_arg0 _
    refine congrArg _ (funext fun a => Fin.ext ?_)
    match a with
    | ⟨0, _⟩ => show win0_0.index t (0 : Fin 2) * 128 + 1 * (j 0).val = win0_3.index t (0 : Fin 2) * 128 + 1 * (j 0).val; omega
    | ⟨1, _⟩ => show win0_0.index t (1 : Fin 2) * 4096 + 1 * (j 1).val = win0_3.index t (1 : Fin 2) * 4096 + 1 * (j 1).val; omega
  have hB : iblk m c 1 t ((win0 3).xinj (grid0.coords t) j) = V m c main_arg1 (((cfg0.win 3).blk t).view.emb j) := by
    unfold iblk
    show V m c main_arg1 _ = V m c main_arg1 _
    refine congrArg _ (funext fun a => Fin.ext ?_)
    match a with
    | ⟨0, _⟩ => show win0_1.index t (0 : Fin 2) * 128 + 1 * (j 0).val = win0_3.index t (0 : Fin 2) * 128 + 1 * (j 0).val; omega
    | ⟨1, _⟩ => show win0_1.index t (1 : Fin 2) * 4096 + 1 * (j 1).val = win0_3.index t (1 : Fin 2) * 4096 + 1 * (j 1).val; omega
  have hC : (ix1 (⟨(j 1).val, hj1⟩ : Fin 4096) : Cert.Rotation.SN.Idx)
      = Cert.Rotation.col (((cfg0.win 3).blk t).view.emb j) :=
    funext fun a => match a with
      | ⟨0, _⟩ => Fin.ext (show (j 1).val = win0_3.index t (1 : Fin 2) * 4096 + 1 * (j 1).val by omega)
  rw [hA, hB, hC]

/-- The imaginary part's block, the same way. -/
theorem flushed4_eq (c : Dev nD) (t : Fin cfg0.N) :
    (dats m 0 c).flushed 4 t = ((cfg0.win 4).blk t).view.read (Elt F)
      (Cert.Rotation.im (V m c main_arg0) (V m c main_arg1) (m ((c : Thread nD τ).loc main_arg2))) := by
  show (cfg0.win 4).cut (grid0.coords t) ((dats m 0 c).after 4 t) = _
  rw [after0_4]
  unfold out0_4
  rw [View.canon_unit_zero hz]
  simp only [View.ld_unit_zero (S := S128x4096) hz, View.ld_unit_zero (S := S1x4096) hz]
  obtain ⟨e00, e01, e10, e11, e20, e21, e30, e31, e40, e41⟩ := idx_facts t
  funext j
  have hj0 : (j 0).val < 128 := (j 0).isLt
  have hj1 : (j 1).val < 4096 := (j 1).isLt
  refine (pay5_at (iblk m c 2 t) (iblk m c 0 t) (iblk m c 1 t) ((win0 4).xinj (grid0.coords t) j) ⟨(j 1).val, hj1⟩ rfl).trans ?_
  rw [phase_blk m c t]
  show _ = Cert.Rotation.im (V m c main_arg0) (V m c main_arg1) (m ((c : Thread nD τ).loc main_arg2)) (((cfg0.win 4).blk t).view.emb j)
  unfold Cert.Rotation.im
  have hA : iblk m c 0 t ((win0 4).xinj (grid0.coords t) j) = V m c main_arg0 (((cfg0.win 4).blk t).view.emb j) := by
    unfold iblk
    show V m c main_arg0 _ = V m c main_arg0 _
    refine congrArg _ (funext fun a => Fin.ext ?_)
    match a with
    | ⟨0, _⟩ => show win0_0.index t (0 : Fin 2) * 128 + 1 * (j 0).val = win0_4.index t (0 : Fin 2) * 128 + 1 * (j 0).val; omega
    | ⟨1, _⟩ => show win0_0.index t (1 : Fin 2) * 4096 + 1 * (j 1).val = win0_4.index t (1 : Fin 2) * 4096 + 1 * (j 1).val; omega
  have hB : iblk m c 1 t ((win0 4).xinj (grid0.coords t) j) = V m c main_arg1 (((cfg0.win 4).blk t).view.emb j) := by
    unfold iblk
    show V m c main_arg1 _ = V m c main_arg1 _
    refine congrArg _ (funext fun a => Fin.ext ?_)
    match a with
    | ⟨0, _⟩ => show win0_1.index t (0 : Fin 2) * 128 + 1 * (j 0).val = win0_4.index t (0 : Fin 2) * 128 + 1 * (j 0).val; omega
    | ⟨1, _⟩ => show win0_1.index t (1 : Fin 2) * 4096 + 1 * (j 1).val = win0_4.index t (1 : Fin 2) * 4096 + 1 * (j 1).val; omega
  have hC : (ix1 (⟨(j 1).val, hj1⟩ : Fin 4096) : Cert.Rotation.SN.Idx)
      = Cert.Rotation.col (((cfg0.win 4).blk t).view.emb j) :=
    funext fun a => match a with
      | ⟨0, _⟩ => Fin.ext (show (j 1).val = win0_4.index t (1 : Fin 2) * 4096 + 1 * (j 1).val by omega)
  rw [hA, hB, hC]

/-! ## The row blocks tile the output arrays -/

/-- An index of the first output array is in step t's block iff each coordinate is in the block's range on its axis. -/
theorem mem_blk3 (t : Fin cfg0.N) (i : S16384x4096.Idx) :
    i ∈ ((cfg0.win 3).blk t).view.set ↔ ∀ a : Fin 2, win0_3.index t a * S128x4096.size a ≤ (i a).val ∧ (i a).val < win0_3.index t a * S128x4096.size a + S128x4096.size a := by
  show i ∈ ((View.whole main_v1_0).slice (win0_3.rect t)).set ↔ _
  rw [View.set_slice_whole, Rect.mem_set_unit]
  exact Iff.rfl

theorem cover3 (i : S16384x4096.Idx) : ∃ t : Fin cfg0.N, (cfg0.win 3).flush t = true ∧ i ∈ ((cfg0.win 3).blk t).view.set := by
  have hi0 : (i 0).val < 16384 := (i 0).isLt
  have hi1 : (i 1).val < 4096 := (i 1).isLt
  have ht : (i 0).val / 128 < cfg0.N := lt_of_lt_of_eq (by omega : (i 0).val / 128 < 128) N_0.symm
  obtain ⟨e00, e01, e10, e11, e20, e21, e30, e31, e40, e41⟩ := idx_facts ⟨(i 0).val / 128, ht⟩
  refine ⟨⟨(i 0).val / 128, ht⟩, flush0_3 _, ?_⟩
  rw [mem_blk3]
  intro a
  match a with
  | ⟨0, _⟩ =>
    show win0_3.index ⟨(i 0).val / 128, ht⟩ (0 : Fin 2) * 128 ≤ (i 0).val ∧ (i 0).val < win0_3.index ⟨(i 0).val / 128, ht⟩ (0 : Fin 2) * 128 + 128
    have hv : (⟨(i 0).val / 128, ht⟩ : Fin cfg0.N).val = (i 0).val / 128 := rfl
    omega
  | ⟨1, _⟩ =>
    show win0_3.index ⟨(i 0).val / 128, ht⟩ (1 : Fin 2) * 4096 ≤ (i 1).val ∧ (i 1).val < win0_3.index ⟨(i 0).val / 128, ht⟩ (1 : Fin 2) * 4096 + 4096
    omega

theorem mem_blk4 (t : Fin cfg0.N) (i : S16384x4096.Idx) :
    i ∈ ((cfg0.win 4).blk t).view.set ↔ ∀ a : Fin 2, win0_4.index t a * S128x4096.size a ≤ (i a).val ∧ (i a).val < win0_4.index t a * S128x4096.size a + S128x4096.size a := by
  show i ∈ ((View.whole main_v1_1).slice (win0_4.rect t)).set ↔ _
  rw [View.set_slice_whole, Rect.mem_set_unit]
  exact Iff.rfl

theorem cover4 (i : S16384x4096.Idx) : ∃ t : Fin cfg0.N, (cfg0.win 4).flush t = true ∧ i ∈ ((cfg0.win 4).blk t).view.set := by
  have hi0 : (i 0).val < 16384 := (i 0).isLt
  have hi1 : (i 1).val < 4096 := (i 1).isLt
  have ht : (i 0).val / 128 < cfg0.N := lt_of_lt_of_eq (by omega : (i 0).val / 128 < 128) N_0.symm
  obtain ⟨e00, e01, e10, e11, e20, e21, e30, e31, e40, e41⟩ := idx_facts ⟨(i 0).val / 128, ht⟩
  refine ⟨⟨(i 0).val / 128, ht⟩, flush0_4 _, ?_⟩
  rw [mem_blk4]
  intro a
  match a with
  | ⟨0, _⟩ =>
    show win0_4.index ⟨(i 0).val / 128, ht⟩ (0 : Fin 2) * 128 ≤ (i 0).val ∧ (i 0).val < win0_4.index ⟨(i 0).val / 128, ht⟩ (0 : Fin 2) * 128 + 128
    have hv : (⟨(i 0).val / 128, ht⟩ : Fin cfg0.N).val = (i 0).val / 128 := rfl
    omega
  | ⟨1, _⟩ =>
    show win0_4.index ⟨(i 0).val / 128, ht⟩ (1 : Fin 2) * 4096 ≤ (i 1).val ∧ (i 1).val < win0_4.index ⟨(i 0).val / 128, ht⟩ (1 : Fin 2) * 4096 + 4096
    omega

/-! ## The output arrays after the kernel, and the result -/

/-- The first output array ends as the specified real part of the arguments. -/
theorem final3 (c : Dev nD) : (dats m 0 c).arrAt 3 cfg0.N
    = Cert.Rotation.re (m ((c : Thread nD τ).loc main_arg0)) (m ((c : Thread nD τ).loc main_arg1)) (m ((c : Thread nD τ).loc main_arg2)) := by
  rw [(dats m 0 c).arrAt_eq_of_cover 3 _ (fun t _ => flushed3_eq m c t) cover3, V_main_arg0, V_main_arg1]

/-- The second output array ends as the specified imaginary part. -/
theorem final4 (c : Dev nD) : (dats m 0 c).arrAt 4 cfg0.N
    = Cert.Rotation.im (m ((c : Thread nD τ).loc main_arg0)) (m ((c : Thread nD τ).loc main_arg1)) (m ((c : Thread nD τ).loc main_arg2)) := by
  rw [(dats m 0 c).arrAt_eq_of_cover 4 _ (fun t _ => flushed4_eq m c t) cover4, V_main_arg0, V_main_arg1]

/-- The three host operations after the kernel stack the two output arrays as the kernel left them. -/
theorem tail_eq (c : Dev nD) :
    Pipeline.afterTail₀ cfgs (dats m) 0 (V0 m) [hostOps1] c main_v4
      = Cert.Rotation.stack bcast_S16384x4096_S1x16384x4096_1_2 concatenates_S1x16384x4096_S1x16384x4096_S2x16384x4096_d0
          ((dats m 0 c).arrAt 3 cfg0.N) ((dats m 0 c).arrAt 4 cfg0.N) := by
  unfold Pipeline.afterTail₀
  show StableHlo.after hostOps1 _ (Proc.devRef .tc main_v4) = _
  after_results
  show Cert.Rotation.stack bcast_S16384x4096_S1x16384x4096_1_2 concatenates_S1x16384x4096_S1x16384x4096_S2x16384x4096_d0
      (Pipeline.withArrays spec0 c (V0 m c) (fun w => (dats m 0 c).arrAt w cfg0.N) (Proc.devRef .tc (Pipeline.arrRef spec0 3)))
      (Pipeline.withArrays spec0 c (V0 m c) (fun w => (dats m 0 c).arrAt w cfg0.N) (Proc.devRef .tc (Pipeline.arrRef spec0 4))) = _
  rw [Pipeline.withArrays_arr spec0 launch0.win.arr_inj c (V0 m c) _ 3, Pipeline.withArrays_arr spec0 launch0.win.arr_inj c (V0 m c) _ 4]

/-- Every weakly fair execution of the kernel program terminates with its result at the stacked rotation of its
    arguments, the arguments unchanged: the frame run, its result read through the three facts above. -/
theorem run : θ_run defs (onTc (τ := τ) (main (F := F))) ⟨m, fun _ => 0, ρ⟩ fun r => ∀ c : Dev nD,
      r.2.mem ((c.tc : Thread nD τ).loc main_v4)
          = Cert.Rotation.stack bcast_S16384x4096_S1x16384x4096_1_2 concatenates_S1x16384x4096_S1x16384x4096_S2x16384x4096_d0
              (Cert.Rotation.re (m ((c.tc : Thread nD τ).loc main_arg0)) (m ((c.tc : Thread nD τ).loc main_arg1)) (m ((c.tc : Thread nD τ).loc main_arg2)))
              (Cert.Rotation.im (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v4 (Pipeline.mem_restRefs_of main_v4 (by decide) (by decide))).trans
        ((tail_eq m c).trans (by rw [final3, final4])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KerValue

end
-- ==== Proof.ReferenceRotation.lean ====
/-
  The reference's result is the specified rotation, stacked.

  The reference computes cos and sin of the phase vector once, spreads each over the batch (first to a row [1, 4096],
  then down the 16384 rows), multiplies entry by entry and combines: its real part at (b, n) is
  x_re (b, n) · cos (ph n) − x_im (b, n) · sin (ph n), its imaginary part x_re (b, n) · sin (ph n) + x_im (b, n) · cos (ph n).
  Reading each spreading at an index sends entry (b, n) to column n of the phase vector, so each part is the
  specified function of the three arguments, entry by entry; the host's cosine and sine are, at the ideal
  instance, the same functions of an extended real as the ones the specification names.
-/
import proofs.«162917_j40243843564154_1_alg».proof.Proof.Gen.ReferenceIdeal.Read
import proofs.«162917_j40243843564154_1_alg».proof.Proof.Rotation

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo

/-- Entry (b, n) of the batch, sent through the two spreadings of a vector of the columns, lands on column n: once
    for each of the four spread copies (cosine and sine, each used in both parts). -/
theorem col_v3 (i : S16384x4096.Idx) : idx_main_v2 (idx_main_v3 i) = Cert.Rotation.col i :=
  funext fun a => match a with | ⟨0, _⟩ => rfl
theorem col_v6 (i : S16384x4096.Idx) : idx_main_v5 (idx_main_v6 i) = Cert.Rotation.col i :=
  funext fun a => match a with | ⟨0, _⟩ => rfl
theorem col_v10 (i : S16384x4096.Idx) : idx_main_v9 (idx_main_v10 i) = Cert.Rotation.col i :=
  funext fun a => match a with | ⟨0, _⟩ => rfl
theorem col_v13 (i : S16384x4096.Idx) : idx_main_v12 (idx_main_v13 i) = Cert.Rotation.col i :=
  funext fun a => match a with | ⟨0, _⟩ => rfl

/-- The reference's real part (its subtraction) is the specified real part, entry by entry: both spreadings of the
    cosine and of the sine read column n of the phase vector at entry (b, n). -/
theorem re_eq (x0 x1 : (⟨S16384x4096, .f32⟩ : BufTy).Contents (Elt Ideal)) (x2 : (⟨S4096, .f32⟩ : BufTy).Contents (Elt Ideal)) :
    val_main_v8 (F := Ideal) x0 x1 x2 = Cert.Rotation.re x0 x1 x2 := by
  funext i
  rw [val_main_v8_apply, val_main_v4_apply, val_main_v7_apply, val_main_v3_apply, val_main_v2_apply, val_main_v0_apply,
    val_main_v6_apply, val_main_v5_apply, val_main_v1_apply, col_v3, col_v6]
  rfl

/-- The reference's imaginary part (its addition) is the specified imaginary part, entry by entry. -/
theorem im_eq (x0 x1 : (⟨S16384x4096, .f32⟩ : BufTy).Contents (Elt Ideal)) (x2 : (⟨S4096, .f32⟩ : BufTy).Contents (Elt Ideal)) :
    val_main_v15 (F := Ideal) x0 x1 x2 = Cert.Rotation.im x0 x1 x2 := by
  funext i
  rw [val_main_v15_apply, val_main_v11_apply, val_main_v14_apply, val_main_v10_apply, val_main_v9_apply, val_main_v1_apply,
    val_main_v13_apply, val_main_v12_apply, val_main_v0_apply, col_v10, col_v13]
  rfl

/-- The reference's whole result: the stack of the two specified parts of its arguments. -/
theorem result_eq (x0 x1 : (⟨S16384x4096, .f32⟩ : BufTy).Contents (Elt Ideal)) (x2 : (⟨S4096, .f32⟩ : BufTy).Contents (Elt Ideal)) :
    val_main_v18 (F := Ideal) x0 x1 x2
      = Cert.Rotation.stack bcast_S16384x4096_S1x16384x4096_1_2 concatenates_S1x16384x4096_S1x16384x4096_S2x16384x4096_d0
          (Cert.Rotation.re x0 x1 x2) (Cert.Rotation.im x0 x1 x2) := by
  unfold val_main_v18 val_main_v16 val_main_v17
  rw [re_eq, im_eq]
  rfl

/-- Every weakly fair execution of the reference terminates with its result at the stacked rotation of its arguments,
    the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18)
          = Cert.Rotation.stack bcast_S16384x4096_S1x16384x4096_1_2 concatenates_S1x16384x4096_S1x16384x4096_S2x16384x4096_d0
              (Cert.Rotation.re (m ((c.tc : Thread nD τ).loc main_arg0)) (m ((c.tc : Thread nD τ).loc main_arg1)) (m ((c.tc : Thread nD τ).loc main_arg2)))
              (Cert.Rotation.im (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v18_eq _ _ _).trans (result_eq _ _ _)), (h c).2⟩)
    (Cert.ReferenceIdeal.Value.run (F := Ideal) m ρ)

end Cert.ReferenceIdeal.RefValue

end
-- ==== Proof.lean ====
/-
  The kernel program and its reference compute the same complex rotation.

  Both take a batch of complex numbers as real and imaginary parts x_re, x_im of shape [16384, 4096] and a phase per
  column, and return (x_re + i·x_im) · exp (i·φ_n) as a stack [2, 16384, 4096] of real and imaginary parts:
      re (b, n) = x_re (b, n) · cos φ_n − x_im (b, n) · sin φ_n,
      im (b, n) = x_re (b, n) · sin φ_n + x_im (b, n) · cos φ_n.
  The kernel does it 128 rows at a time inside one pipelined call, taking cos and sin of the staged phase row in the
  body; the reference takes them once on the host and spreads them over the batch. With floats read as extended
  reals and every operation exact, the kernel's cos / sin and the host's are the same functions, both sides
  multiply, subtract and add in the same order, and both end with the same stacking — so the two results are
  the same function of the arguments entry by entry (Proof/Rotation.lean states it, Proof/KernelRotation.lean and
  Proof/ReferenceRotation.lean show each program computes it). No law of arithmetic is used, hence no finiteness:
  the precondition is never opened. The idealization rewrote nothing, so there is nothing to preserve. The three
  programs run to the end with their arguments unchanged: the two kernel programs by their frame runs, the
  reference by its run.
-/
import proofs.«162917_j40243843564154_1_alg».proof.Defs
import proofs.«162917_j40243843564154_1_alg».proof.Proof.Gen.Kernel
import proofs.«162917_j40243843564154_1_alg».proof.Proof.Gen.Kernel.Frame
import proofs.«162917_j40243843564154_1_alg».proof.Proof.Gen.KernelIdeal
import proofs.«162917_j40243843564154_1_alg».proof.Proof.Gen.KernelIdeal.Frame
import proofs.«162917_j40243843564154_1_alg».proof.Proof.Gen.ReferenceIdeal
import proofs.«162917_j40243843564154_1_alg».proof.Proof.Gen.ReferenceIdeal.Run
import proofs.«162917_j40243843564154_1_alg».proof.Proof.Gen.ReferenceIdeal.Read
import proofs.«162917_j40243843564154_1_alg».proof.Proof.Gen.Pre_finite_inputs
import proofs.«162917_j40243843564154_1_alg».proof.Proof.Rotation
import proofs.«162917_j40243843564154_1_alg».proof.Proof.KernelRotation
import proofs.«162917_j40243843564154_1_alg».proof.Proof.ReferenceRotation
import Idealize.ShloMosaic.Adequacy
import Idealize.ShloMosaic.Init

noncomputable section

namespace Cert.Proof

open Idealize.ShloMosaic Idealize.SL.Sem

/-- The kernel as printed runs to the end and leaves its arguments as they were. -/
theorem frame_k : Cert.frame_Kernel := fun m ρ _ => Cert.Kernel.Gen.frame m ρ

/-- So does the kernel read at the ideal instance. -/
theorem frame_ki : Cert.frame_KernelIdeal := fun m ρ _ => Cert.KernelIdeal.Gen.frame m ρ

/-- So does the reference: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the stacked rotation of those arguments:
    the two runs are stated over one term, and the agreement carries the reference's arguments to the kernel's. -/
theorem algebraic : Cert.algebraic_KernelIdeal_ReferenceIdeal := by
  intro m ρ m' ρ' _ hagree
  refine ⟨_, Cert.KernelIdeal.KerValue.run (F := Ideal) m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
